-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S50000x1 : Shape := ⟨2, ![50000, 1]⟩
abbrev S5000x1 : Shape := ⟨2, ![5000, 1]⟩
abbrev S1x64 : Shape := ⟨2, ![1, 64]⟩
abbrev S1x1 : Shape := ⟨2, ![1, 1]⟩

abbrev nBuf : Space → Nat
  | .hbm => 80
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S64x1, .f32⟩
  | .local _ .vmem, ⟨19, _⟩ => ⟨S1, .f32⟩
  | .local _ .vmem, ⟨20, _⟩ => ⟨S5000x1, .f32⟩
  | .local _ .vmem, ⟨21, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1.size a ≤ S1.size a
  hwx3_3 : ∀ i : grid3.Coords, EltTy.bits .f32 = 32 ∨ (Rect.block (s := S1) S1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x128, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S850000, .f32⟩
  | .hbm, ⟨70, _⟩ => ⟨S_, .f32⟩
  | .hbm, ⟨71, _⟩ => ⟨S50000, .f32⟩
  | .hbm, ⟨72, _⟩ => ⟨S850000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x64, .f32⟩
  | .hbm, ⟨106, _⟩ => ⟨S850000x1, .f32⟩
  | .hbm, ⟨107, _⟩ => ⟨S850000x64, .f32⟩
  | .hbm, ⟨108, _⟩ => ⟨S850000x64, .f32⟩
  | .hbm, ⟨109, _⟩ => ⟨S_, .f32⟩
  | .hbm, ⟨110, _⟩ => ⟨S50000x64, .f32⟩
  | .hbm, ⟨111, _⟩ => ⟨S850000x1, .i32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S50000x64, .f32⟩
  | .hbm, ⟨116, _⟩ => ⟨S50000x1, .f32⟩
  | .hbm, ⟨117, _⟩ => ⟨S1x1, .f32⟩
  | .hbm, ⟨118, _⟩ => ⟨S50000x1, .f32⟩
  | .hbm, ⟨119, _⟩ => ⟨S50000x1, .f32⟩
  | .hbm, ⟨120, _⟩ => ⟨S50000x1, .f32⟩
  | .hbm, ⟨121, _⟩ => ⟨S50000x1, .f32⟩
  | .hbm, ⟨122, _⟩ => ⟨S_, .f32⟩
  | .hbm, ⟨123, _⟩ => ⟨S50000x1, .f32⟩
  | .hbm, ⟨124, _⟩ => ⟨S50000x1, .f32⟩
  | .hbm, ⟨125, _⟩ => ⟨S_, .f32⟩
  | .hbm, ⟨126, _⟩ => ⟨S50000x1, .f32⟩
  | .hbm, ⟨127, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The graph-convolution network both programs compute, as one composition of whole-array operations.

  Nodes 0 … 49999, 800000 directed edges given as two rows of endpoints, and one self loop per node appended,
  so 850000 edges in all. With `deg j` the number of edges arriving at `j`, `dinv j = (max (deg j) 1)^(-1/2)`
  and the edge weight `coef k = dinv (src k) · dinv (dst k)` (a negative endpoint is first wrapped by +50000),
  one convolution sends a node table `T` to `j ↦ ∑_{k : dst k = j} T (src k) · coef k` (the gather, the product and
  the scatter-add). The network is
      x ↦ x·W1 ↦ convolve ↦ (· + b1) ↦ max 0 ↦ (·)·W2 ↦ convolve ↦ (· + b2) ↦ (·)·fcW + fcb ↦ 1 / (1 + exp (−·)).
  Every stage is spelt with the host operation the reference applies, so the reference's composed term is this
  composition on the nose, and each kernel region is compared with one stage.
-/
import proofs.«110742_j77481210020191_1_alg».proof.ReferenceIdeal

noncomputable section

namespace Cert.Gcn

open Idealize.ShloMosaic Cert.ReferenceIdeal Cert.ReferenceIdeal.Facts₀

variable {F : FTy → Type} [FloatOps F] [Cert.ReferenceIdeal.Facts]

/-- One row of the endpoint table, flattened, with the self loops `0 … 49999` appended. -/
def endpoints (row : Fin 2 → Nat) (h : S2x800000.Slices row S1x800000)
    (e : (⟨S2x800000, .i32⟩ : BufTy).Contents (Elt F)) : (⟨S850000, .i32⟩ : BufTy).Contents (Elt F) :=
  concatenate S850000 0 [⟨S800000, (shapeCast _ (extractStridedSlice S1x800000 row e h) shapeCasts_S1x800000_S800000)⟩, ⟨S50000, (iotaInDim S50000 32 0)⟩] concatenates_S800000_S50000_S850000_d0

/-- The source endpoint of every edge. -/
def srcOf (e : (⟨S2x800000, .i32⟩ : BufTy).Contents (Elt F)) : (⟨S850000, .i32⟩ : BufTy).Contents (Elt F) :=
  endpoints ![0, 0] slices_S2x800000_S1x800000_0_0 e

/-- The target endpoint of every edge. -/
def dstOf (e : (⟨S2x800000, .i32⟩ : BufTy).Contents (Elt F)) : (⟨S850000, .i32⟩ : BufTy).Contents (Elt F) :=
  endpoints ![1, 0] slices_S2x800000_S1x800000_1_0 e

/-- A negative endpoint counts from the end: `v < 0 ↦ v + 50000`. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- `dinv j = (max (deg j) 1)^(-1/2)`, `deg j` the number of edges whose target is `j`. -/
def dinvOf (e : (⟨S2x800000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32))) (broadcastInDim S50000 ![] bcast_S_S50000 (constant S_ .f32 0x3F800000#32)))

/-- The weight of every edge: `dinv (src k) · dinv (dst k)`. -/
def coefOf (e : (⟨S2x800000, .i32⟩ : BufTy).Contents (Elt F)) : (⟨S850000, .f32⟩ : BufTy).Contents (Elt F) :=
  mulf (Host.gather gather_S50000_S850000x1_S850000_n_0_n_n_0_1_1 (dinvOf e) (broadcastInDim S850000x1 ![0] bcast_S850000_S850000x1_0 (wrap (srcOf e)))) (Host.gather gather_S50000_S850000x1_S850000_n_0_n_n_0_1_1 (dinvOf e) (broadcastInDim S850000x1 ![0] bcast_S850000_S850000x1_0 (wrap (dstOf e))))

/-- One convolution of a 128-column node table: row `j` of the result is `∑_{k : dst k = j} T (src k) · coef k`. -/
def conv128 (T : (⟨S50000x128, .f32⟩ : BufTy).Contents (Elt F)) (e : (⟨S2x800000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dstOf e)) (mulf (Host.gather gather_S50000x128_S850000x1_S850000x128_1_0_n_n_0_1_1128 T (broadcastInDim S850000x1 ![0] bcast_S850000_S850000x1_0 (wrap (srcOf e)))) (broadcastInDim S850000x128 ![0, 1] bcast_S850000x1_S850000x128_0_1 (broadcastInDim S850000x1 ![0] bcast_S850000_S850000x1_0 (coefOf e))))

/-- The same convolution of a 64-column node table. -/
def conv64 (T : (⟨S50000x64, .f32⟩ : BufTy).Contents (Elt F)) (e : (⟨S2x800000, .i32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dstOf e)) (mulf (Host.gather gather_S50000x64_S850000x1_S850000x64_1_0_n_n_0_1_164 T (broadcastInDim S850000x1 ![0] bcast_S850000_S850000x1_0 (wrap (srcOf e)))) (broadcastInDim S850000x64 ![0, 1] bcast_S850000x1_S850000x64_0_1 (broadcastInDim S850000x1 ![0] bcast_S850000_S850000x1_0 (coefOf e))))

/-- The first feature transform: `x · W1`. -/
def lin1 (x : (⟨S50000x128, .f32⟩ : BufTy).Contents (Elt F)) (W1 : (⟨S128x128, .f32⟩ : BufTy).Contents (Elt F)) : (⟨S50000x128, .f32⟩ : BufTy).Contents (Elt F) :=
  Host.dotGeneral dot_S50000x128_S128x128_S50000x128_1_0_0_1_n_n none x W1

/-- Bias and rectifier after the first convolution: `max (a + b1) 0`, the bias along the columns. -/
def act1 (a : (⟨S50000x128, .f32⟩ : BufTy).Contents (Elt F)) (b1 : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b1))) (broadcastInDim S50000x128 ![] bcast_S_S50000x128 (constant S_ .f32 0x00000000#32))

/-- The second feature transform: `h · W2`. -/
def lin2 (h : (⟨S50000x128, .f32⟩ : BufTy).Contents (Elt F)) (W2 : (⟨S128x64, .f32⟩ : BufTy).Contents (Elt F)) : (⟨S50000x64, .f32⟩ : BufTy).Contents (Elt F) :=
  Host.dotGeneral dot_S50000x128_S128x64_S50000x64_1_0_0_1_n_n none h W2

/-- The head: `1 / (1 + exp (−((a + b2) · fcW + fcb)))`. -/
def head (a : (⟨S50000x64, .f32⟩ : BufTy).Contents (Elt F)) (b2 : (⟨S64, .f32⟩ : BufTy).Contents (Elt F)) (fcW : (⟨S64x1, .f32⟩ : BufTy).Contents (Elt F)) (fcb : (⟨S1, .f32⟩ : BufTy).Contents (Elt F)) : (⟨S50000x1, .f32⟩ : BufTy).Contents (Elt F) :=
  Host.divf (broadcastInDim S50000x1 ![] bcast_S_S50000x1 (constant S_ .f32 0x3F800000#32)) (addf (broadcastInDim S50000x1 ![] bcast_S_S50000x1 (constant S_ .f32 0x3F800000#32)) (Host.exp (Host.negf (addf (Host.dotGeneral dot_S50000x64_S64x1_S50000x1_1_0_0_1_n_n none (addf a (broadcastInDim S50000x64 ![0, 1] bcast_S1x64_S50000x64_0_1 (broadcastInDim S1x64 ![1] bcast_S64_S1x64_1 b2))) fcW) (broadcastInDim S50000x1 ![0, 1] bcast_S1x1_S50000x1_0_1 (broadcastInDim S1x1 ![1] bcast_S1_S1x1_1 fcb))))))

/-- The whole network. -/
def model (x : (⟨S50000x128, .f32⟩ : BufTy).Contents (Elt F)) (e : (⟨S2x800000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F))
    (fcW : (⟨S64x1, .f32⟩ : BufTy).Contents (Elt F)) (fcb : (⟨S1, .f32⟩ : BufTy).Contents (Elt F)) : (⟨S50000x1, .f32⟩ : BufTy).Contents (Elt F) :=
  head (conv64 (lin2 (act1 (conv128 (lin1 x W1) e) b1) W2) e) b2 fcW fcb

end Cert.Gcn

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.LibDotAt.lean ====
/-
  The host's matrix product read at an entry, at the ideal values.

  For dimension numbers that contract the left operand's columns against the right operand's rows, with no batch
  axis — `[M, K] · [K, N] → [M, N]` — the host's product has, at row `o` and column `t`, the entry
  `∑ c, A[o, c] · B[c, t]`: the same sum a kernel's product into a zero accumulator has there, so a product
  computed in row blocks and the whole product agree entry by entry.
-/
import Idealize.ShloMosaic.PureOps.Ideal.Laws
import Idealize.ShloMosaic.Lib.ValueIdx
import proofs.«110742_j77481210020191_1_alg».proof.Proof.LibMatmulAt

noncomputable section

open scoped BigOperators

namespace Cert.LibDotAt

open Idealize.ShloMosaic Idealize.ShloMosaic.ValueIdx Cert.LibMatmulAt

variable {M K N : ℕ} (D : DotDims ⟨2, ![M, K]⟩ ⟨2, ![K, N]⟩ ⟨2, ![M, N]⟩)

/-- THE HOST'S PRODUCT AT AN ENTRY. -/
theorem dotGeneral_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    Host.dotGeneral D prec A B (ix2 o t) = ∑ c : Fin K, A (ix2 o c) * B (ix2 c t) := by
  show FloatOps.dotGeneral D prec .single A B (ix2 o t) = _
  rw [Ideal.dotGeneral_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibDotAt

end
-- ==== Proof.Region0.lean ====
/-
  Region 0: ten row blocks of 5000 nodes, each the block's rows of `x` times the whole `W1`; together the product `x · W1`.
-/
import proofs.«110742_j77481210020191_1_alg».proof.Proof.Gen.KernelIdeal.Frame
import proofs.«110742_j77481210020191_1_alg».proof.Proof.Gen.ReferenceIdeal
import proofs.«110742_j77481210020191_1_alg».proof.Proof.Spec
import proofs.«110742_j77481210020191_1_alg».proof.Proof.LibMatmulAt
import proofs.«110742_j77481210020191_1_alg».proof.Proof.LibDotAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open scoped BigOperators
open Idealize.ShloMosaic.ValueIdx

/-- The block's offset vector is zero on every axis. -/
theorem off_zero : (![0, 0] : Fin 2 → Nat) = fun _ => 0 := funext fun a => by fin_cases a <;> rfl

/-- Entry (p, q) of the body's product of a row block with the weights is the row-by-column sum. -/
theorem body_at (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmulAt.matmul_zero_at dot_S5000x128_S128x128_S5000x128_1_0_0_1_n_n rfl rfl rfl rfl rfl rfl none _ _ p q

/-- Entry (r, q) of the whole product is the same row-by-column sum. -/
theorem lin1_at (x : (⟨Cert.ReferenceIdeal.S50000x128, .f32⟩ : BufTy).Contents (Elt Ideal)) (W : (⟨Cert.ReferenceIdeal.S128x128, .f32⟩ : BufTy).Contents (Elt Ideal)) (r : Fin 50000) (q : Fin 128) :
    Cert.Gcn.lin1 (F := Ideal) x W (ix2 r q) = ∑ k : Fin 128, x (ix2 r k) * W (ix2 k q) := by
  unfold Cert.Gcn.lin1
  exact Cert.LibDotAt.dotGeneral_at Cert.ReferenceIdeal.dot_S50000x128_S128x128_S50000x128_1_0_0_1_n_n rfl rfl rfl rfl rfl rfl none x W r q

/-- The index maps over the grid: the row block of `x` moves with the output's, both sit in column block 0 and
    stay among the ten row blocks; the weights are read whole at every point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some point's. -/
theorem idx_onto : ∀ b : Fin 10, ∃ t : Fin cfg0.N, win0_2.index t = ![b.val, 0] :=
  (by decide +kernel : ∀ b : Fin 10, ∃ t : Fin grid0.N, win0_2.index t = ![b.val, 0])

/-- A row block's product entry against the whole product's: when row `p` of the block is row `r` of `x` and the
    block of weights is `W`, entry (p, q) of the block product is entry (r, q) of `x · W` — the same sum over the
    contracted axis, term by term. -/
theorem block_entry (x0 : Vec Ideal S5000x128 .f32) (x1 : Vec Ideal S128x128 .f32)
    (x : (⟨Cert.ReferenceIdeal.S50000x128, .f32⟩ : BufTy).Contents (Elt Ideal)) (W : (⟨Cert.ReferenceIdeal.S128x128, .f32⟩ : BufTy).Contents (Elt Ideal))
    (p : Fin 5000) (q : Fin 128) (r : Fin 50000)
    (h0 : ∀ k : Fin 128, x0 (ix2 p k) = x (ix2 r k)) (h1 : ∀ k : Fin 128, x1 (ix2 k q) = W (ix2 k q)) :
    k0_pay1 (F := Ideal) x0 x1 (ix2 p q) = Cert.Gcn.lin1 (F := Ideal) x W (ix2 r q) := by
  rw [body_at, lin1_at]
  exact Finset.sum_congr rfl fun k _ => by rw [h0 k, h1 k]

/-- What point `t` writes back is row block `t` of the product `x · W1` of the arrays the region was entered with:
    entry (p, q) of the block product and entry (5000 t + p, q) of the whole product are one sum, since row `p` of
    the staged block of `x` is row 5000 t + p of `x` and the staged weights are all of `W1`. -/
theorem flushed_eq (c : Dev nD) (t : Fin cfg0.N) :
    (dat0 (F := Ideal) V c).flushed 2 t = ((cfg0.win 2).blk t).view.read (Elt Ideal) (Cert.Gcn.lin1 (F := Ideal) (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := idx_facts t
  funext j
  obtain ⟨p, q, rfl⟩ : ∃ (p : Fin 5000) (q : Fin 128), j = ix2 p q := ⟨j 0, j 1, eq_ix2 j⟩
  have hp : p.val < 5000 := p.isLt
  show k0_pay1 (F := Ideal) (iblk0 V c 0 t) (iblk0 V c 1 t) (ix2 p q) = Cert.Gcn.lin1 (F := Ideal) (V c main_arg0) (V c main_arg2) (((cfg0.win 2).blk t).view.emb (ix2 p q))
  have hi : ((cfg0.win 2).blk t).view.emb (ix2 p q) = ix2 (⟨win0_2.index t (0 : Fin 2) * 5000 + p.val, by omega⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hi]
  refine block_entry (iblk0 V c 0 t) (iblk0 V c 1 t) (V c main_arg0) (V c main_arg2) p q _ (fun k => ?_) (fun k => ?_)
  · show V c main_arg0 (((cfg0.win 0).blk t).view.emb (ix2 p k)) = V c main_arg0 _
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · show V c main_arg2 (((cfg0.win 1).blk t).view.emb (ix2 k q)) = V c main_arg2 _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The ten row blocks fill the output array: row `r` is in the block of the point whose row block is `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array is the first feature transform of the arrays the region was entered with. -/
theorem array (c : Dev nD) :
    (dat0 (F := Ideal) V c).arrAt 2 cfg0.N = Cert.Gcn.lin1 (F := Ideal) (V c main_arg0) (V c main_arg2) := by
  exact (dat0 (F := Ideal) V c).arrAt_eq_of_cover 2 _ (fun t _ => flushed_eq V c t) cover

end Cert.KernelIdeal.Region0

end
-- ==== Proof.Region1.lean ====
/-
  Region 1: ten row blocks of 5000 nodes, each `max (a + b1) 0` entry by entry, the bias along the columns.
-/
import proofs.«110742_j77481210020191_1_alg».proof.Proof.Gen.KernelIdeal.Frame
import proofs.«110742_j77481210020191_1_alg».proof.Proof.Gen.ReferenceIdeal
import proofs.«110742_j77481210020191_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section Blocks

open Idealize.ShloMosaic.ValueIdx

/-! ## One entry of each side -/

/-- Entry `(p, q)` of the body's result on a row block `x0` and the bias `x1`: `max (x0 (p, q) + x1 q) 0`.
    The bias reaches the block as `[128] → [1, 128] → [5000, 128]` (a unit axis added, then the one row repeated);
    the zero is a scalar repeated. -/
theorem body_entry (x0 : Vec Ideal S5000x128 .f32) (x1 : Vec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  rw [maximumf_apply, addf_apply, shapeCast_self, broadcastTo_1b_ab_apply, shapeCast_a_1a_apply]
  rfl

/-- Entry `(r, q)` of the rectified, biased table: `max (a (r, q) + b1 q) 0`. Here the bias is spread by two
    broadcasts along named axes, `[128] → [1, 128] → [50000, 128]`, and the zero is a rank-0 constant spread to every entry. -/
theorem act1_entry (a : (⟨S50000x128, .f32⟩ : BufTy).Contents (Elt Ideal)) (b1 : (⟨S128, .f32⟩ : BufTy).Contents (Elt Ideal))
    (r : Fin 50000) (q : Fin 128) :
    Cert.Gcn.act1 (F := Ideal) a b1 (ix2 r q) = max (a (ix2 r q) + b1 (ix1 q)) (Ideal.ofBits .f32 0x00000000#32) := by
  unfold Cert.Gcn.act1
  rw [maximumf_apply, addf_apply]
  refine congrArg₂ max (congrArg (a (ix2 r q) + ·) ?_) ?_
  · -- the bias: column `q` of the one row, which is entry `q` of `b1`
    refine (broadcastInDim_apply _ _ _ (ix2 r q) (ix2 (0 : Fin 1) q) fun ax => ?_).trans ?_
    · match ax with
      | ⟨0, _⟩ => rfl
      | ⟨1, _⟩ => rfl
    · refine broadcastInDim_apply _ _ _ _ (ix1 q) fun ax => ?_
      match ax with
      | ⟨0, _⟩ => rfl
  · -- the zero: the one entry of the rank-0 constant
    exact broadcastInDim_apply _ _ _ (ix2 r q) ix0 fun ax => ax.elim0

/-! ## From the ten row blocks to the table -/

/-- The body's accesses start at the origin of their buffers. -/
theorem origin2 : (![0, 0] : Fin 2 → Nat) = fun _ => 0 := funext fun a => by match a with | ⟨0, _⟩ => rfl | ⟨1, _⟩ => rfl
theorem origin1 : (![0] : Fin 1 → Nat) = fun _ => 0 := funext fun a => by match a with | ⟨0, _⟩ => rfl

/-- The index maps over the grid: the input's row block moves with the output's, both stay in column block 0, the
    bias is always its one whole block, and the row block index is at most 9. -/
theorem index_facts : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 9 :=
  (by decide +kernel : ∀ t : Fin grid1.N, _)

/-- Every one of the ten row blocks is some point's. -/
theorem index_onto : ∀ b : Fin 10, ∃ t : Fin cfg1.N, win1_2.index t = ![b.val, 0] :=
  (by decide +kernel : ∀ b : Fin 10, ∃ t : Fin grid1.N, win1_2.index t = ![b.val, 0])

/-- What point `t` writes back is its row block of the rectified, biased table: entry `(p, q)` of the block sits at
    row `5000 · (block index) + p`, column `q`, of the table, the input block's entry at the same place, and the bias
    entry at `q`. -/
theorem flushed_eq (c : Dev nD) (t : Fin cfg1.N) :
    (dat1 (F := Ideal) V c).flushed 2 t
      = ((cfg1.win 2).blk t).view.read (Elt Ideal) (Cert.Gcn.act1 (F := Ideal) (V c main_v42) (V c main_arg3)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128) origin1]
  obtain ⟨e0, e1, e2, e3, e4⟩ := index_facts t
  funext j
  obtain ⟨p, q, rfl⟩ : ∃ (p : Fin 5000) (q : Fin 128), j = ix2 p q := ⟨j 0, j 1, eq_ix2 j⟩
  have hrow : win1_2.index t (0 : Fin 2) * 5000 + p.val < 50000 := by have := p.isLt; omega
  -- where the block's entry sits in the table
  have hout : ((cfg1.win 2).blk t).view.emb (ix2 p q) = ix2 (⟨win1_2.index t (0 : Fin 2) * 5000 + p.val, hrow⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  -- the input block's entry is the table's at the same place
  have hin : iblk1 V c 0 t (ix2 p q) = V c main_v42 (ix2 (⟨win1_2.index t (0 : Fin 2) * 5000 + p.val, hrow⟩ : Fin 50000) q) := by
    show V c main_v42 (((cfg1.win 0).blk t).view.emb (ix2 p q)) = _
    refine congrArg (V c main_v42) (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  -- the bias block is the whole bias
  have hbias : iblk1 V c 1 t (ix1 q) = V c main_arg3 (ix1 q) := by
    show V c main_arg3 (((cfg1.win 1).blk t).view.emb (ix1 q)) = _
    refine congrArg (V c main_arg3) (funext fun a => Fin.ext ?_)
    match a with
    | ⟨0, _⟩ => show win1_1.index t (0 : Fin 1) * 128 + 1 * q.val = q.val; omega
  refine (body_entry (iblk1 V c 0 t) (iblk1 V c 1 t) p q).trans ?_
  show _ = Cert.Gcn.act1 (F := Ideal) (V c main_v42) (V c main_arg3) (((cfg1.win 2).blk t).view.emb (ix2 p q))
  rw [hout, act1_entry, hin, hbias]

/-- An index of the table is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v43).slice (win1_2.rect t)).set ↔ _
  rw [View.set_slice_whole, Rect.mem_set_unit]
  exact Iff.rfl

/-- The ten row blocks cover the table: row `r` is in the block of index `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end Blocks

/-- After region 1 its output array is the rectified, biased table. -/
theorem array (c : Dev nD) :
    (dat1 (F := Ideal) V c).arrAt 2 cfg1.N = Cert.Gcn.act1 (F := Ideal) (V c main_v42) (V c main_arg3) := by
  exact (dat1 (F := Ideal) V c).arrAt_eq_of_cover 2 _ (fun t _ => flushed_eq V c t) cover

end Cert.KernelIdeal.Region1

end
-- ==== Proof.Region2.lean ====
/-
  Region 2: ten row blocks of 5000 nodes, each the block's rows of `h` times the whole `W2`; together the product `h · W2`.

  Entry `(p, q)` of block `t` is `∑ k, h (5000 t + p, k) · W2 (k, q)`, and entry `(5000 t + p, q)` of the whole product is the
  same sum; row `r` lies in block `r / 5000`, so the ten blocks fill the array.
-/
import proofs.«110742_j77481210020191_1_alg».proof.Proof.Gen.KernelIdeal.Frame
import proofs.«110742_j77481210020191_1_alg».proof.Proof.Gen.ReferenceIdeal
import proofs.«110742_j77481210020191_1_alg».proof.Proof.Spec
import proofs.«110742_j77481210020191_1_alg».proof.Proof.LibMatmulAt
import proofs.«110742_j77481210020191_1_alg».proof.Proof.LibDotAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The body loads and stores whole blocks: the offset `(0, 0)` is the zero offset. -/
theorem zero_offset : (![0, 0] : Fin 2 → Nat) = fun _ => 0 :=
  funext fun a => by match a with | ⟨0, _⟩ => rfl | ⟨1, _⟩ => rfl

/-- The block indices over the grid: at point `t` the rows of `h` and the rows of the output are block `t` of their
    row axis and block 0 of their column axis; `W2` is block 0 on both axes at every point. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's product at an entry: the change of float format is the identity on the extended reals and the
    accumulator starts at zero, so entry `(p, q)` is `∑ k, x0 (p, k) · x1 (k, q)`. -/
theorem block_entry (x0 : Vec Ideal S5000x128 .f32) (x1 : Vec Ideal S128x64 .f32) (p : Fin 5000) (q : Fin 64) :
    k2_pay1 (F := Ideal) x0 x1 (ValueIdx.ix2 p q) = ∑ k : Fin 128, x0 (ValueIdx.ix2 p k) * x1 (ValueIdx.ix2 k q) := by
  unfold k2_pay1
  rw [shapeCast_self]
  exact Cert.LibMatmulAt.matmul_zero_at dot_S5000x128_S128x64_S5000x64_1_0_0_1_n_n rfl rfl rfl rfl rfl rfl none _ _ p q

/-- The whole product at an entry: entry `(r, q)` of `h · W2` is `∑ k, h (r, k) · W2 (k, q)`. -/
theorem whole_entry (h : (⟨S50000x128, .f32⟩ : BufTy).Contents (Elt Ideal)) (W : (⟨S128x64, .f32⟩ : BufTy).Contents (Elt Ideal))
    (r : Fin 50000) (q : Fin 64) :
    Cert.Gcn.lin2 (F := Ideal) h W (ValueIdx.ix2 r q) = ∑ k : Fin 128, h (ValueIdx.ix2 r k) * W (ValueIdx.ix2 k q) := by
  unfold Cert.Gcn.lin2
  exact Cert.LibDotAt.dotGeneral_at Cert.ReferenceIdeal.dot_S50000x128_S128x64_S50000x64_1_0_0_1_n_n rfl rfl rfl rfl rfl rfl none _ _ r q

/-- WHAT POINT `t` WRITES BACK is block `t` of `h · W2`: entry `(p, q)` of the block sits at `(5000 t + p, q)` of the
    array, row `p` of the block of `h` is row `5000 t + p` of `h`, the block of `W2` is `W2`, and the two sums over the
    contracted axis agree term by term. -/
theorem written_back (c : Dev nD) (t : Fin cfg2.N) :
    (dat2 (F := Ideal) V c).flushed 2 t
      = ((cfg2.win 2).blk t).view.read (Elt Ideal) (Cert.Gcn.lin2 (F := Ideal) (V c main_v43) (V c main_arg4)) := by
  show (cfg2.win 2).cut (grid2.coords t) ((dat2 (F := Ideal) V c).after 2 t) = _
  rw [after2_2]
  unfold out2_2
  rw [View.canon_unit_zero zero_offset]
  simp only [View.ld_unit_zero (S := S5000x128) zero_offset, View.ld_unit_zero (S := S128x64) zero_offset]
  funext j
  revert j
  show ∀ j : S5000x64.Idx, k2_pay1 (F := Ideal) (iblk2 V c 0 t) (iblk2 V c 1 t) j
      = Cert.Gcn.lin2 (F := Ideal) (V c main_v43) (V c main_arg4) (((cfg2.win 2).blk t).view.emb j)
  intro j
  obtain ⟨p, q, rfl⟩ : ∃ (p : Fin 5000) (q : Fin 64), j = ValueIdx.ix2 p q := ⟨j 0, j 1, ValueIdx.eq_ix2 j⟩
  obtain ⟨e00, e01, e10, e11, e20, e21⟩ := block_index t
  have ht : t.val < 10 := t.isLt
  have hp : p.val < 5000 := p.isLt
  have hq : q.val < 64 := q.isLt
  -- the block's entry (p, q) is the array's entry (5000 t + p, q)
  have row : ((cfg2.win 2).blk t).view.emb (ValueIdx.ix2 p q)
      = ValueIdx.ix2 (⟨5000 * t.val + p.val, by omega⟩ : Fin 50000) q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  rw [row]
  refine (block_entry (iblk2 V c 0 t) (iblk2 V c 1 t) p q).trans ?_
  refine Eq.trans ?_ (whole_entry (V c main_v43) (V c main_arg4) _ q).symm
  refine Finset.sum_congr rfl fun k _ => ?_
  have hk : k.val < 128 := k.isLt
  -- row p of the block of h is row 5000 t + p of h
  have l : iblk2 V c 0 t (ValueIdx.ix2 p k)
      = V c main_v43 (ValueIdx.ix2 (⟨5000 * t.val + p.val, by omega⟩ : Fin 50000) k) := by
    show V c main_v43 (((cfg2.win 0).blk t).view.emb (ValueIdx.ix2 p k)) = _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  -- the block of W2 is W2
  have r : iblk2 V c 1 t (ValueIdx.ix2 k q) = V c main_arg4 (ValueIdx.ix2 k q) := by
    show V c main_arg4 (((cfg2.win 1).blk t).view.emb (ValueIdx.ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  rw [l, r]

/-- An index of the array is in point `t`'s block iff each coordinate is in the block's range on its axis. -/
theorem mem_block (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v44).slice (win2_2.rect t)).set ↔ _
  rw [View.set_slice_whole, Rect.mem_set_unit]
  exact Iff.rfl

/-- The ten blocks fill the array: row `r` lies in the block of point `r / 5000`, and every column in its one
    column block. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, show (i 0).val / 5000 < 10 by omega⟩, rfl⟩
  obtain ⟨-, -, -, -, e20, e21⟩ := block_index t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After region 2 its output array is the second feature transform. -/
theorem array (c : Dev nD) :
    (dat2 (F := Ideal) V c).arrAt 2 cfg2.N = Cert.Gcn.lin2 (F := Ideal) (V c main_v43) (V c main_arg4) :=
  (dat2 (F := Ideal) V c).arrAt_eq_of_cover 2 _ (fun t _ => written_back V c t) covered

end Cert.KernelIdeal.Region2

end
-- ==== Proof.Region3.lean ====
/-
  Region 3: ten row blocks of 5000 nodes, each `1 / (1 + exp (−((a + b2) · fcW + fcb)))` row by row.
-/
import proofs.«110742_j77481210020191_1_alg».proof.Proof.Gen.KernelIdeal.Frame
import proofs.«110742_j77481210020191_1_alg».proof.Proof.Gen.ReferenceIdeal
import proofs.«110742_j77481210020191_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«110742_j77481210020191_1_alg».proof.Proof.LibMatmulAt
import proofs.«110742_j77481210020191_1_alg».proof.Proof.LibDotAt

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section Blocks

open Idealize.ShloMosaic.ValueIdx
open scoped BigOperators

/-- The word 0x3F800000 is the number one. -/
theorem one_word : Ideal.ofBits .f32 0x3F800000#32 = 1 := by
  simp [Ideal.ofBits, Ideal.ieee, -EReal.coe_mul]; norm_num

/-- The body's arithmetic read at row `p` of a block: the logistic of the row's product with the one column, plus the bias. -/
theorem pay_at (x0 : Vec Ideal S5000x64 .f32) (x1 : Vec Ideal S64 .f32) (x2 : Vec Ideal S64x1 .f32) (x3 : Vec Ideal S1 .f32)
    (p : Fin 5000) (q : Fin 1) :
    k3_pay1 (F := Ideal) x0 x1 x2 x3 (ix2 p q)
      = Ideal.logistic ((∑ c : Fin 64, (x0 (ix2 p c) + x1 (ix1 c)) * x2 (ix2 c q)) + x3 (ix1 (0 : Fin 1))) := by
  unfold k3_pay1
  refine congrArg Ideal.logistic ?_
  refine congrArg₂ (· + ·) ?_ ?_
  · refine (Cert.LibMatmulAt.matmul_zero_at dot_S5000x64_S64x1_S5000x1_1_0_0_1_n_n rfl rfl rfl rfl rfl rfl none _ _ p q).trans ?_
    refine Finset.sum_congr rfl fun c _ => ?_
    refine congrArg₂ (· * ·) ?_ rfl
    show shapeCast S5000x64 x0 _ (ix2 p c) + broadcastTo S5000x64 (shapeCast S1x64 x1 _) _ (ix2 p c) = _
    rw [shapeCast_self, broadcastTo_1b_ab_apply, shapeCast_a_1a_apply]
  · refine (broadcastTo_1b_ab_apply _ _ p q).trans ?_
    refine (shapeCast_a_1a_apply x3 _ 0 q).trans ?_
    exact congrArg (fun z => x3 (ix1 z)) (Subsingleton.elim q 0)

/-- The head of the network read at row `r`: `1 / (1 + exp (−·))` in the host's operations is the logistic, and the
    host's product at an entry is the same sum over the 64 columns; the two biases are read through their broadcasts. -/
theorem head_at (a : (⟨Cert.ReferenceIdeal.S50000x64, .f32⟩ : BufTy).Contents (Elt Ideal))
    (b2 : (⟨Cert.ReferenceIdeal.S64, .f32⟩ : BufTy).Contents (Elt Ideal))
    (fcW : (⟨Cert.ReferenceIdeal.S64x1, .f32⟩ : BufTy).Contents (Elt Ideal))
    (fcb : (⟨Cert.ReferenceIdeal.S1, .f32⟩ : BufTy).Contents (Elt Ideal))
    (r : Fin 50000) (q : Fin 1) :
    Cert.Gcn.head (F := Ideal) a b2 fcW fcb (ix2 r q)
      = Ideal.logistic ((∑ c : Fin 64, (a (ix2 r c) + b2 (ix1 c)) * fcW (ix2 c q)) + fcb (ix1 (0 : Fin 1))) := by
  unfold Cert.Gcn.head
  show Ideal.div (Ideal.ofBits .f32 0x3F800000#32) (Ideal.ofBits .f32 0x3F800000#32 + Ideal.exp (-(_ + _))) = _
  rw [one_word]
  unfold Ideal.logistic
  refine congrArg (fun z => Ideal.div 1 (1 + Ideal.exp (-z))) ?_
  refine congrArg₂ (· + ·) ?_ ?_
  · refine (Cert.LibDotAt.dotGeneral_at Cert.ReferenceIdeal.dot_S50000x64_S64x1_S50000x1_1_0_0_1_n_n rfl rfl rfl rfl rfl rfl none _ _ r q).trans ?_
    refine Finset.sum_congr rfl fun c _ => ?_
    refine congrArg₂ (· * ·) ?_ rfl
    refine congrArg (a (ix2 r c) + ·) ?_
    refine (broadcastInDim_apply _ _ _ (ix2 r c) (ix2 (0 : Fin 1) c) ?_).trans (broadcastInDim_apply _ _ b2 (ix2 (0 : Fin 1) c) (ix1 c) ?_)
    · intro ax
      match ax with
      | ⟨0, _⟩ => rfl
      | ⟨1, _⟩ => rfl
    · intro ax
      match ax with
      | ⟨0, _⟩ => rfl
  · refine (broadcastInDim_apply _ _ _ (ix2 r q) (ix2 (0 : Fin 1) (0 : Fin 1)) ?_).trans (broadcastInDim_apply _ _ fcb (ix2 (0 : Fin 1) (0 : Fin 1)) (ix1 (0 : Fin 1)) ?_)
    · intro ax
      match ax with
      | ⟨0, _⟩ => rfl
      | ⟨1, _⟩ => rfl
    · intro ax
      match ax with
      | ⟨0, _⟩ => rfl

/-- The body's accesses start at the origin of their buffers. -/
theorem zero_offset2 : (![0, 0] : Fin 2 → Nat) = fun _ => 0 := funext fun a => by fin_cases a <;> rfl
/-- The same on one axis. -/
theorem zero_offset1 : (![0] : Fin 1 → Nat) = fun _ => 0 := funext fun a => by fin_cases a; rfl

/-- The printed index maps, decided over the grid: the row-blocked input moves with the output, whose row block is the
    point's number; every other block index is 0. -/
theorem block_indices : ∀ t : Fin cfg3.N, win3_0.index t (0 : Fin 2) = win3_4.index t (0 : Fin 2)
    ∧ win3_0.index t (1 : Fin 2) = 0
    ∧ win3_1.index t (0 : Fin 1) = 0
    ∧ win3_2.index t (0 : Fin 2) = 0
    ∧ win3_2.index t (1 : Fin 2) = 0
    ∧ win3_3.index t (0 : Fin 1) = 0
    ∧ win3_4.index t (1 : Fin 2) = 0
    ∧ win3_4.index t (0 : Fin 2) ≤ 9 :=
  (by decide +kernel : ∀ t : Fin grid3.N, _)

/-- Every row block is some point's. -/
theorem block_onto : ∀ (q0 : Fin 10), ∃ t : Fin cfg3.N, win3_4.index t = ![q0.val, 0] :=
  (by decide +kernel : ∀ (q0 : Fin 10), ∃ t : Fin grid3.N, win3_4.index t = ![q0.val, 0])

/-- Row `p` of point `t`'s block of the node table is row `5000 t + p` of the table. -/
theorem rows_at (c : Dev nD) (t : Fin cfg3.N) (p : Fin 5000) (k : Fin 64)
    (hr : win3_4.index t (0 : Fin 2) * 5000 + p.val < 50000) :
    iblk3 V c 0 t (ix2 p k) = V c main_v57 (ix2 (⟨win3_4.index t (0 : Fin 2) * 5000 + p.val, hr⟩ : Fin 50000) k) := by
  obtain ⟨e0, e1, -⟩ := block_indices t
  show V c main_v57 (((cfg3.win 0).blk t).view.emb (ix2 p k)) = _
  refine congrArg (V c main_v57) ?_
  funext a; apply Fin.ext
  match a with
  | ⟨0, _⟩ => show win3_0.index t (0 : Fin 2) * 5000 + 1 * p.val = win3_4.index t (0 : Fin 2) * 5000 + p.val; omega
  | ⟨1, _⟩ => show win3_0.index t (1 : Fin 2) * 64 + 1 * k.val = k.val; omega

/-- The first bias is staged whole at every point. -/
theorem bias2_at (c : Dev nD) (t : Fin cfg3.N) (k : Fin 64) :
    iblk3 V c 1 t (ix1 k) = V c main_arg5 (ix1 k) := by
  obtain ⟨-, -, e2, -⟩ := block_indices t
  show V c main_arg5 (((cfg3.win 1).blk t).view.emb (ix1 k)) = _
  refine congrArg (V c main_arg5) ?_
  funext a; apply Fin.ext
  match a with
  | ⟨0, _⟩ => show win3_1.index t (0 : Fin 1) * 64 + 1 * k.val = k.val; omega

/-- The weight column is staged whole at every point. -/
theorem weight_at (c : Dev nD) (t : Fin cfg3.N) (k : Fin 64) (q : Fin 1) :
    iblk3 V c 2 t (ix2 k q) = V c main_arg6 (ix2 k q) := by
  obtain ⟨-, -, -, e3, e4, -⟩ := block_indices t
  show V c main_arg6 (((cfg3.win 2).blk t).view.emb (ix2 k q)) = _
  refine congrArg (V c main_arg6) ?_
  funext a; apply Fin.ext
  match a with
  | ⟨0, _⟩ => show win3_2.index t (0 : Fin 2) * 64 + 1 * k.val = k.val; omega
  | ⟨1, _⟩ => show win3_2.index t (1 : Fin 2) * 1 + 1 * q.val = q.val; omega

/-- The last bias is staged whole at every point. -/
theorem biasfc_at (c : Dev nD) (t : Fin cfg3.N) (u : Fin 1) :
    iblk3 V c 3 t (ix1 u) = V c main_arg7 (ix1 u) := by
  obtain ⟨-, -, -, -, -, e5, -⟩ := block_indices t
  show V c main_arg7 (((cfg3.win 3).blk t).view.emb (ix1 u)) = _
  refine congrArg (V c main_arg7) ?_
  funext a; apply Fin.ext
  match a with
  | ⟨0, _⟩ => show win3_3.index t (0 : Fin 1) * 1 + 1 * u.val = u.val; omega

/-- What point `t` writes back is block `t` of the head of the arrays the region was entered with: row `p` of the block
    and row `5000 t + p` of the head are the same logistic of the same sum. -/
theorem flushed_eq (c : Dev nD) (t : Fin cfg3.N) :
    (dat3 (F := Ideal) V c).flushed 4 t = ((cfg3.win 4).blk t).view.read (Elt Ideal) (Cert.Gcn.head (F := Ideal) (V c main_v57) (V c main_arg5) (V c main_arg6) (V c main_arg7)) := by
  show (cfg3.win 4).cut (grid3.coords t) ((dat3 V c).after 4 t) = _
  rw [after3_4]
  unfold out3_4
  rw [View.canon_unit_zero zero_offset2]
  simp only [View.ld_unit_zero (S := S5000x64) zero_offset2, View.ld_unit_zero (S := S64) zero_offset1, View.ld_unit_zero (S := S64x1) zero_offset2, View.ld_unit_zero (S := S1) zero_offset1]
  funext j
  obtain ⟨p, q, rfl⟩ : ∃ (p : Fin 5000) (q : Fin 1), j = ix2 p q := ⟨j 0, j 1, eq_ix2 j⟩
  obtain ⟨-, -, -, -, -, -, e6, e7⟩ := block_indices t
  have hp : p.val < 5000 := p.isLt
  have hr : win3_4.index t (0 : Fin 2) * 5000 + p.val < 50000 := by omega
  have hemb : ((cfg3.win 4).blk t).view.emb (ix2 p q) = ix2 (⟨win3_4.index t (0 : Fin 2) * 5000 + p.val, hr⟩ : Fin 50000) q := by
    funext a; apply Fin.ext
    match a with
    | ⟨0, _⟩ => show win3_4.index t (0 : Fin 2) * 5000 + 1 * p.val = win3_4.index t (0 : Fin 2) * 5000 + p.val; omega
    | ⟨1, _⟩ => show win3_4.index t (1 : Fin 2) * 1 + 1 * q.val = q.val; omega
  show k3_pay1 (F := Ideal) (iblk3 V c 0 t) (iblk3 V c 1 t) (iblk3 V c 2 t) (iblk3 V c 3 t) (ix2 p q)
    = Cert.Gcn.head (F := Ideal) (V c main_v57) (V c main_arg5) (V c main_arg6) (V c main_arg7) (((cfg3.win 4).blk t).view.emb (ix2 p q))
  refine (pay_at _ _ _ _ p q).trans ?_
  refine Eq.trans ?_ (congrArg (Cert.Gcn.head (F := Ideal) (V c main_v57) (V c main_arg5) (V c main_arg6) (V c main_arg7)) hemb).symm
  refine Eq.trans ?_ (head_at _ _ _ _ _ q).symm
  refine congrArg Ideal.logistic ?_
  refine congrArg₂ (· + ·) ?_ (biasfc_at V c t 0)
  refine Finset.sum_congr rfl fun k _ => ?_
  exact congrArg₂ (· * ·) (congrArg₂ (· + ·) (rows_at V c t p k hr) (bias2_at V c t k)) (weight_at V c t k q)

/-- An index of the output array is in point `t`'s block iff each coordinate is in the block's range on its axis. -/
theorem mem_blk (t : Fin cfg3.N) (i : S50000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v58).slice (win3_4.rect t)).set ↔ _
  rw [View.set_slice_whole, Rect.mem_set_unit]
  exact Iff.rfl

/-- The ten row blocks fill the output: row `r` is in the block of point `r / 5000`. -/
theorem cover (i : S50000x1.Idx) :
    ∃ t : Fin cfg3.N, (cfg3.win 4).flush t = true ∧ i ∈ ((cfg3.win 4).blk t).view.set := by
  have hi0 : (i 0).val < 50000 := (i 0).isLt
  have hi1 : (i 1).val < 1 := (i 1).isLt
  obtain ⟨t, ht⟩ := block_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 1 ≤ (i 1).val ∧ (i 1).val < win3_4.index t (1 : Fin 2) * 1 + 1; omega

end Blocks

/-- After region 3 its output array is the head of the network. -/
theorem array (c : Dev nD) :
    (dat3 (F := Ideal) V c).arrAt 4 cfg3.N = Cert.Gcn.head (F := Ideal) (V c main_v57) (V c main_arg5) (V c main_arg6) (V c main_arg7) := by
  exact (dat3 V c).arrAt_eq_of_cover 4 _ (fun t _ => flushed_eq V c t) cover

end Cert.KernelIdeal.Region3

end
-- ==== Proof.Chain.lean ====
/-
  The kernel program's result array, read back through its seven stretches.

  The program alternates host stretches with four regions. The endpoint lists, and the edge weights computed from
  them, are made by the first stretch and only read afterwards; every argument array is only ever read. So the
  contents at each boundary are: after the first stretch the sources, targets and weights of the edges; after
  region 0 the first feature transform; after the second stretch its convolution; after regions 1 and 2 the
  rectified table and the second feature transform; after the third stretch its convolution; after region 3 the
  head — the network of Spec.lean applied to the eight arguments.
-/
import proofs.«110742_j77481210020191_1_alg».proof.Proof.Gen.KernelIdeal.Frame
import proofs.«110742_j77481210020191_1_alg».proof.Proof.Gen.ReferenceIdeal
import proofs.«110742_j77481210020191_1_alg».proof.Proof.Spec
import proofs.«110742_j77481210020191_1_alg».proof.Proof.Region0
import proofs.«110742_j77481210020191_1_alg».proof.Proof.Region1
import proofs.«110742_j77481210020191_1_alg».proof.Proof.Region2
import proofs.«110742_j77481210020191_1_alg».proof.Proof.Region3
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first stretch: the edges -/

theorem src_1 (c : Dev nD) : W1 m ρ c (Proc.devRef .tc main_v5) = Cert.Gcn.srcOf (m ((c : Thread nD τ).loc main_arg1)) := by
  dsimp only [W1, W0, hostOps0]; after_results_simp; rfl
theorem dst_1 (c : Dev nD) : W1 m ρ c (Proc.devRef .tc main_v6) = Cert.Gcn.dstOf (m ((c : Thread nD τ).loc main_arg1)) := by
  dsimp only [W1, W0, hostOps0]; after_results_simp; rfl
theorem coef_1 (c : Dev nD) : W1 m ρ c (Proc.devRef .tc main_v28) = Cert.Gcn.coefOf (m ((c : Thread nD τ).loc main_arg1)) := by
  dsimp only [W1, W0, hostOps0]; after_results_simp; rfl

/-- The first stretch writes no argument. -/
theorem arg_1 (b : Ref sig .tc) (hb : b = main_arg0 ∨ b = main_arg2 ∨ b = main_arg3 ∨ b = main_arg4 ∨ b = main_arg5 ∨ b = main_arg6 ∨ b = main_arg7)
    (c : Dev nD) : W1 m ρ c (Proc.devRef .tc b) = m ((c : Thread nD τ).loc b) := by
  rcases hb with rfl | rfl | rfl | rfl | rfl | rfl | rfl <;>
    (dsimp only [W1, W0, hostOps0]; after_results_simp)

/-! ## Region 0: the first feature transform -/

theorem xw_2 (c : Dev nD) : W2 m ρ c (Proc.devRef .tc main_v29)
    = Cert.Gcn.lin1 (m ((c : Thread nD τ).loc main_arg0)) (m ((c : Thread nD τ).loc main_arg2)) := by
  refine (W2_arr m ρ c 2).trans ((Cert.KernelIdeal.Region0.array (V1 m ρ) c).trans ?_)
  show Cert.Gcn.lin1 (W1 m ρ c (Proc.devRef .tc main_arg0)) (W1 m ρ c (Proc.devRef .tc main_arg2)) = _
  rw [arg_1 m ρ main_arg0 (by simp) c, arg_1 m ρ main_arg2 (by simp) c]

theorem src_2 (c : Dev nD) : W2 m ρ c (Proc.devRef .tc main_v5) = Cert.Gcn.srcOf (m ((c : Thread nD τ).loc main_arg1)) :=
  (W2_of_ne m ρ c main_v5 (by decide)).trans (src_1 m ρ c)
theorem dst_2 (c : Dev nD) : W2 m ρ c (Proc.devRef .tc main_v6) = Cert.Gcn.dstOf (m ((c : Thread nD τ).loc main_arg1)) :=
  (W2_of_ne m ρ c main_v6 (by decide)).trans (dst_1 m ρ c)
theorem coef_2 (c : Dev nD) : W2 m ρ c (Proc.devRef .tc main_v28) = Cert.Gcn.coefOf (m ((c : Thread nD τ).loc main_arg1)) :=
  (W2_of_ne m ρ c main_v28 (by decide)).trans (coef_1 m ρ c)
/-- Region 0 writes none of the arguments the later regions read. -/
theorem arg_2 (b : Ref sig .tc) (hb : b = main_arg3 ∨ b = main_arg4 ∨ b = main_arg5 ∨ b = main_arg6 ∨ b = main_arg7)
    (c : Dev nD) : W2 m ρ c (Proc.devRef .tc b) = m ((c : Thread nD τ).loc b) := by
  rcases hb with rfl | rfl | rfl | rfl | rfl
  · exact (W2_of_ne m ρ c main_arg3 (by decide)).trans (arg_1 m ρ main_arg3 (by simp) c)
  · exact (W2_of_ne m ρ c main_arg4 (by decide)).trans (arg_1 m ρ main_arg4 (by simp) c)
  · exact (W2_of_ne m ρ c main_arg5 (by decide)).trans (arg_1 m ρ main_arg5 (by simp) c)
  · exact (W2_of_ne m ρ c main_arg6 (by decide)).trans (arg_1 m ρ main_arg6 (by simp) c)
  · exact (W2_of_ne m ρ c main_arg7 (by decide)).trans (arg_1 m ρ main_arg7 (by simp) c)

/-! ## The second stretch: the first convolution -/

theorem agg_3 (c : Dev nD) : W3 m ρ c (Proc.devRef .tc main_v42)
    = Cert.Gcn.conv128 (Cert.Gcn.lin1 (m ((c : Thread nD τ).loc main_arg0)) (m ((c : Thread nD τ).loc main_arg2))) (m ((c : Thread nD τ).loc main_arg1)) := by
  dsimp only [W3, hostOps1]; after_results_simp
  rw [xw_2 m ρ c, src_2 m ρ c, dst_2 m ρ c, coef_2 m ρ c]
  rfl

theorem src_3 (c : Dev nD) : W3 m ρ c (Proc.devRef .tc main_v5) = Cert.Gcn.srcOf (m ((c : Thread nD τ).loc main_arg1)) := by
  refine Eq.trans ?_ (src_2 m ρ c); dsimp only [W3, hostOps1]; after_results_simp
theorem dst_3 (c : Dev nD) : W3 m ρ c (Proc.devRef .tc main_v6) = Cert.Gcn.dstOf (m ((c : Thread nD τ).loc main_arg1)) := by
  refine Eq.trans ?_ (dst_2 m ρ c); dsimp only [W3, hostOps1]; after_results_simp
theorem coef_3 (c : Dev nD) : W3 m ρ c (Proc.devRef .tc main_v28) = Cert.Gcn.coefOf (m ((c : Thread nD τ).loc main_arg1)) := by
  refine Eq.trans ?_ (coef_2 m ρ c); dsimp only [W3, hostOps1]; after_results_simp
/-- The second stretch writes no argument. -/
theorem arg_3 (b : Ref sig .tc) (hb : b = main_arg3 ∨ b = main_arg4 ∨ b = main_arg5 ∨ b = main_arg6 ∨ b = main_arg7)
    (c : Dev nD) : W3 m ρ c (Proc.devRef .tc b) = m ((c : Thread nD τ).loc b) := by
  refine Eq.trans ?_ (arg_2 m ρ b hb c)
  rcases hb with rfl | rfl | rfl | rfl | rfl <;> (dsimp only [W3, hostOps1]; after_results_simp)

/-! ## Regions 1 and 2: the rectified table, the second feature transform -/

theorem h_4 (c : Dev nD) : W4 m ρ c (Proc.devRef .tc main_v43)
    = Cert.Gcn.act1 (Cert.Gcn.conv128 (Cert.Gcn.lin1 (m ((c : Thread nD τ).loc main_arg0)) (m ((c : Thread nD τ).loc main_arg2))) (m ((c : Thread nD τ).loc main_arg1)))
        (m ((c : Thread nD τ).loc main_arg3)) := by
  refine (W4_arr m ρ c 2).trans ((Cert.KernelIdeal.Region1.array (V3 m ρ) c).trans ?_)
  show Cert.Gcn.act1 (W3 m ρ c (Proc.devRef .tc main_v42)) (W3 m ρ c (Proc.devRef .tc main_arg3)) = _
  rw [agg_3 m ρ c, arg_3 m ρ main_arg3 (by simp) c]

theorem hw_5 (c : Dev nD) : W5 m ρ c (Proc.devRef .tc main_v44)
    = Cert.Gcn.lin2 (Cert.Gcn.act1 (Cert.Gcn.conv128 (Cert.Gcn.lin1 (m ((c : Thread nD τ).loc main_arg0)) (m ((c : Thread nD τ).loc main_arg2))) (m ((c : Thread nD τ).loc main_arg1)))
        (m ((c : Thread nD τ).loc main_arg3))) (m ((c : Thread nD τ).loc main_arg4)) := by
  refine (W5_arr m ρ c 2).trans ((Cert.KernelIdeal.Region2.array (V4 m ρ) c).trans ?_)
  show Cert.Gcn.lin2 (W4 m ρ c (Proc.devRef .tc main_v43)) (W4 m ρ c (Proc.devRef .tc main_arg4)) = _
  rw [h_4 m ρ c, W4_of_ne m ρ c main_arg4 (by decide), arg_3 m ρ main_arg4 (by simp) c]

theorem src_5 (c : Dev nD) : W5 m ρ c (Proc.devRef .tc main_v5) = Cert.Gcn.srcOf (m ((c : Thread nD τ).loc main_arg1)) :=
  (W5_of_ne m ρ c main_v5 (by decide)).trans ((W4_of_ne m ρ c main_v5 (by decide)).trans (src_3 m ρ c))
theorem dst_5 (c : Dev nD) : W5 m ρ c (Proc.devRef .tc main_v6) = Cert.Gcn.dstOf (m ((c : Thread nD τ).loc main_arg1)) :=
  (W5_of_ne m ρ c main_v6 (by decide)).trans ((W4_of_ne m ρ c main_v6 (by decide)).trans (dst_3 m ρ c))
theorem coef_5 (c : Dev nD) : W5 m ρ c (Proc.devRef .tc main_v28) = Cert.Gcn.coefOf (m ((c : Thread nD τ).loc main_arg1)) :=
  (W5_of_ne m ρ c main_v28 (by decide)).trans ((W4_of_ne m ρ c main_v28 (by decide)).trans (coef_3 m ρ c))
/-- Regions 1 and 2 write none of the head's arguments. -/
theorem arg_5 (b : Ref sig .tc) (hb : b = main_arg5 ∨ b = main_arg6 ∨ b = main_arg7)
    (c : Dev nD) : W5 m ρ c (Proc.devRef .tc b) = m ((c : Thread nD τ).loc b) := by
  rcases hb with rfl | rfl | rfl
  · exact (W5_of_ne m ρ c main_arg5 (by decide)).trans ((W4_of_ne m ρ c main_arg5 (by decide)).trans (arg_3 m ρ main_arg5 (by simp) c))
  · exact (W5_of_ne m ρ c main_arg6 (by decide)).trans ((W4_of_ne m ρ c main_arg6 (by decide)).trans (arg_3 m ρ main_arg6 (by simp) c))
  · exact (W5_of_ne m ρ c main_arg7 (by decide)).trans ((W4_of_ne m ρ c main_arg7 (by decide)).trans (arg_3 m ρ main_arg7 (by simp) c))

/-! ## The third stretch: the second convolution -/

theorem agg_6 (c : Dev nD) : W6 m ρ c (Proc.devRef .tc main_v57)
    = Cert.Gcn.conv64 (Cert.Gcn.lin2 (Cert.Gcn.act1 (Cert.Gcn.conv128 (Cert.Gcn.lin1 (m ((c : Thread nD τ).loc main_arg0)) (m ((c : Thread nD τ).loc main_arg2))) (m ((c : Thread nD τ).loc main_arg1)))
        (m ((c : Thread nD τ).loc main_arg3))) (m ((c : Thread nD τ).loc main_arg4))) (m ((c : Thread nD τ).loc main_arg1)) := by
  dsimp only [W6, hostOps3]; after_results_simp
  rw [hw_5 m ρ c, src_5 m ρ c, dst_5 m ρ c, coef_5 m ρ c]
  rfl

/-- The third stretch writes no argument. -/
theorem arg_6 (b : Ref sig .tc) (hb : b = main_arg5 ∨ b = main_arg6 ∨ b = main_arg7)
    (c : Dev nD) : W6 m ρ c (Proc.devRef .tc b) = m ((c : Thread nD τ).loc b) := by
  refine Eq.trans ?_ (arg_5 m ρ b hb c)
  rcases hb with rfl | rfl | rfl <;> (dsimp only [W6, hostOps3]; after_results_simp)

/-! ## Region 3: the head -/

/-- THE RESULT: after the last region the result array holds the network of the eight arguments. -/
theorem result_7 (c : Dev nD) : W7 m ρ c (Proc.devRef .tc main_v58)
    = Cert.Gcn.model (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W7_arr m ρ c 4).trans ((Cert.KernelIdeal.Region3.array (V6 m ρ) c).trans ?_)
  show Cert.Gcn.head (W6 m ρ c (Proc.devRef .tc main_v57)) (W6 m ρ c (Proc.devRef .tc main_arg5))
    (W6 m ρ c (Proc.devRef .tc main_arg6)) (W6 m ρ c (Proc.devRef .tc main_arg7)) = _
  rw [agg_6 m ρ c, arg_6 m ρ main_arg5 (by simp) c, arg_6 m ρ main_arg6 (by simp) c, arg_6 m ρ main_arg7 (by simp) c]
  rfl

end Cert.KernelIdeal.Whole

end
-- ==== Proof.RefValue.lean ====
/-
  The reference's composed term is the network of Spec.lean: the same host operations in the same order, the
  edge weights (computed once per layer by the reference) being one function of the endpoint table.
-/
import proofs.«110742_j77481210020191_1_alg».proof.Proof.Gen.ReferenceIdeal.Run
import proofs.«110742_j77481210020191_1_alg».proof.Proof.Spec

set_option maxRecDepth 16384

noncomputable section

namespace Cert.ReferenceIdeal.Whole

open Cert.ReferenceIdeal Cert.ReferenceIdeal.Gen Idealize.ShloMosaic Idealize.ShloMosaic.TcCoe Idealize.SL.Sem

variable {F : FTy → Type} [FloatOps F]

/-- What the reference's run leaves in its result array is the network applied to the launch contents of its
    eight arguments. -/
theorem result_eq (m : (ℓ : Loc nD τ sig) → Buf (Elt F) ℓ) (c : Dev nD) :
    Cert.ReferenceIdeal.Value.res_main_v95 m c
      = Cert.Gcn.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v95
  rfl

end Cert.ReferenceIdeal.Whole

end
-- ==== Proof.lean ====
/-
  A two-layer graph-convolution network with a sigmoid head, as four row-blocked kernel regions among host
  stretches that gather and scatter along the edges, against the same network written with whole-array operations.

  With `deg j` the number of edges arriving at node `j` (one self loop per node included),
  `dinv = (max deg 1)^(-1/2)` and the weight `coef k = dinv (src k) · dinv (dst k)` of edge `k`, a convolution sends
  a node table `T` to `j ↦ ∑_{k : dst k = j} T (src k) · coef k`, and both programs compute
      sigmoid ((conv ((max (conv (x · W1) + b1) 0) · W2) + b2) · fcW + fcb).
  The kernel program forms the three matrix products, the bias-and-rectifier and the head in regions over ten blocks
  of 5000 rows; a product taken block of rows by block of rows is the whole product, entry by entry the same sum over
  the contracted axis, and the other regions are entrywise in the rows, so each region's output array is one stage of
  the network applied to the arrays it was entered with (Region0 … Region3). The edge lists, the weights and the two
  convolutions are the same host operations in both programs, applied in the kernel program between the regions
  (Chain). Nothing here uses that the inputs are finite: the two sides are the same sums and the same entrywise
  operations on the extended reals, and the kernel's logistic is `1 / (1 + exp (−x))` in the host's operations.

  The three frames are the generated ones (the reference's from its generated run); no rewrite was made when the
  kernel program was idealized, so there is nothing to preserve.
-/
import proofs.«110742_j77481210020191_1_alg».proof.Defs
import proofs.«110742_j77481210020191_1_alg».proof.Proof.Gen.Kernel
import proofs.«110742_j77481210020191_1_alg».proof.Proof.Gen.Kernel.Skeleton
import proofs.«110742_j77481210020191_1_alg».proof.Proof.Gen.Kernel.Launch
import proofs.«110742_j77481210020191_1_alg».proof.Proof.Gen.Kernel.Points
import proofs.«110742_j77481210020191_1_alg».proof.Proof.Gen.Kernel.Frame
import proofs.«110742_j77481210020191_1_alg».proof.Proof.Gen.KernelIdeal
import proofs.«110742_j77481210020191_1_alg».proof.Proof.Gen.KernelIdeal.Skeleton
import proofs.«110742_j77481210020191_1_alg».proof.Proof.Gen.KernelIdeal.Launch
import proofs.«110742_j77481210020191_1_alg».proof.Proof.Gen.KernelIdeal.Points
import proofs.«110742_j77481210020191_1_alg».proof.Proof.Gen.KernelIdeal.Frame
import proofs.«110742_j77481210020191_1_alg».proof.Proof.Gen.ReferenceIdeal
import proofs.«110742_j77481210020191_1_alg».proof.Proof.Gen.Pre_finite_inputs
import proofs.«110742_j77481210020191_1_alg».proof.Proof.Gen.ReferenceIdeal.Run
import proofs.«110742_j77481210020191_1_alg».proof.Proof.KernelRun
import proofs.«110742_j77481210020191_1_alg».proof.Proof.Chain
import proofs.«110742_j77481210020191_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the network of the arguments in the result array: the kernel program's by reading its
    last boundary back through the regions and the stretches, the reference's because its composed term is the
    network; the arguments agree, so the results do. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.result_7 m ρ c), (h c).2⟩)
    (Cert.KernelIdeal.Whole.run_main (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Whole.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
